-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S8x256 : Shape := ⟨2, ![8, 256]⟩
abbrev S64 : Shape := ⟨1, ![64]⟩
abbrev S128x256 : Shape := ⟨2, ![128, 256]⟩
abbrev S128 : Shape := ⟨1, ![128]⟩
abbrev S1000000x4 : Shape := ⟨2, ![1000000, 4]⟩
abbrev S_ : Shape := ⟨0, ![]⟩
abbrev S1000000x1 : Shape := ⟨2, ![1000000, 1]⟩
abbrev S1000000 : Shape := ⟨1, ![1000000]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S8x256 : S_.BroadcastsInDim S8x256 (![] : Fin 0 → Fin S8x256.rank)
  reducesTo_S8x256_S_d0_1 : S8x256.ReducesTo [0, 1] S_
  bcast_S_S64 : S_.BroadcastsInDim S64 (![] : Fin 0 → Fin S64.rank)
  reducesTo_S64_S_d0 : S64.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  slices_S1000000x4_S1000000x1_0_0 : S1000000x4.Slices ![0, 0] S1000000x1
  shapeCasts_S1000000x1_S1000000 : S1000000x1.ShapeCasts S1000000
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg6 : IVec S1000000x4 32) (main_v28 : IVec S_ 1) (main_v33 : IVec S_ 1) : IVec S_ 1 :=
  let main_v34 : IVec S_ 1 := andi main_v28 main_v33
  let main_v35 : IVec S1000000x1 32 := (extractStridedSlice S1000000x1 ![0, 0] · slices_S1000000x4_S1000000x1_0_0) main_arg6
  let main_v36 : IVec S1000000 32 := shapeCast S1000000 main_v35 shapeCasts_S1000000x1_S1000000
  let main_c_12 : IVec S_ 32 := constantI S_ 32 8#32
  let main_v37 : IVec S1000000 32 := broadcastInDim S1000000 ![] bcast_S_S1000000 main_c_12
  let main_v38 : IVec S1000000 1 := cmpi .slt main_v36 main_v37
  let main_c_13 : IVec S_ 1 := constantI S_ 1 1#1
  let main_v39 : IVec S_ 1 := (fun x v => Host.reduce IntOp.andi x v reducesTo_S1000000_S_d0 h_S_) main_v38 main_c_13
  let main_v40 : IVec S_ 1 := andi main_v34 main_v39
  main_v40

def fn_part1 {F : FTy → Type} [FloatOps F] (main_arg4 : FVec F S128x256 .f32) (main_arg5 : FVec F S128 .f32) (main_arg6 : IVec S1000000x4 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : IVec S1000000x1 32 := (extractStridedSlice S1000000x1 ![0, 0] · slices_S1000000x4_S1000000x1_0_0) main_arg6
  let main_v30 : IVec S1000000 32 := shapeCast S1000000 main_v29 shapeCasts_S1000000x1_S1000000
  let main_c_10 : IVec S_ 32 := constantI S_ 32 0#32
  let main_v31 : IVec S1000000 32 := broadcastInDim S1000000 ![] bcast_S_S1000000 main_c_10
  let main_v32 : IVec S1000000 1 := cmpi .sge main_v30 main_v31
  let main_c_11 : IVec S_ 1 := constantI S_ 1 1#1
  let main_v33 : IVec S_ 1 := (fun x v => Host.reduce IntOp.andi x v reducesTo_S1000000_S_d0 h_S_) main_v32 main_c_11
  fn_part2 (F := F) main_arg6 main_v28 main_v33

def fn {F : FTy → Type} [FloatOps F] (main_arg0 : FVec F S1000000x64 .f32) (main_arg1 : FVec F S8x256 .f32) (main_arg2 : FVec F S64 .f32) (main_arg3 : FVec F S64 .f32) (main_arg4 : FVec F S128x256 .f32) (main_arg5 : FVec F S128 .f32) (main_arg6 : IVec S1000000x4 32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S1000000x64 : Shape := ⟨2, ![1000000, 64]⟩
abbrev S8x256 : Shape := ⟨2, ![8, 256]⟩
abbrev S64 : Shape := ⟨1, ![64]⟩
abbrev S128x256 : Shape := ⟨2, ![128, 256]⟩
abbrev S128 : Shape := ⟨1, ![128]⟩
abbrev S1000000x4 : Shape := ⟨2, ![1000000, 4]⟩
abbrev S_ : Shape := ⟨0, ![]⟩
abbrev S256x128 : Shape := ⟨2, ![256, 128]⟩
abbrev S8x128 : Shape := ⟨2, ![8, 128]⟩
abbrev S1x128 : Shape := ⟨2, ![1, 128]⟩
abbrev S8x64 : Shape := ⟨2, ![8, 64]⟩
abbrev S1000000x1 : Shape := ⟨2, ![1000000, 1]⟩
abbrev S1000000 : Shape := ⟨1, ![1000000]⟩
abbrev S1x64 : Shape := ⟨2, ![1, 64]⟩
abbrev S8000x64 : Shape := ⟨2, ![8000, 64]⟩
abbrev S8000x1 : Shape := ⟨2, ![8000, 1]⟩
abbrev S8000 : Shape := ⟨1, ![8000]⟩
abbrev S8000x8 : Shape := ⟨2, ![8000, 8]⟩

abbrev nBuf : Space → Nat
  | .hbm => 29
  | .vmem => 10
  | .smem => 0
  | _ => 0

abbrev bufTy : (tb : Table) → Fin (tcTables nBuf tb) → BufTy
  | .hbm, ⟨0, _⟩ => ⟨S1000000x64, .f32⟩
  | .hbm, ⟨1, _⟩ => ⟨S8x256, .f32⟩
  | .hbm, ⟨2, _⟩ => ⟨S64, .f32⟩
  | .hbm, ⟨3, _⟩ => ⟨S64, .f32⟩
  | .hbm, ⟨4, _⟩ => ⟨S128x256, .f32⟩
  | .hbm, ⟨5, _⟩ => ⟨S128, .f32⟩
  | .hbm, ⟨6, _⟩ => ⟨S1000000x4, .i32⟩
  | .hbm, ⟨7, _⟩ => ⟨S8x256, .f32⟩
  | .hbm, ⟨8, _⟩ => ⟨S8x256, .f32⟩
  | .hbm, ⟨9, _⟩ => ⟨S_, .f32⟩
  | .hbm, ⟨10, _⟩ => ⟨S8x256, .f32⟩
  | .hbm, ⟨11, _⟩ => ⟨S8x256, .f32⟩
  | .hbm, ⟨12, _⟩ => ⟨S_, .f32⟩
  | .hbm, ⟨13, _⟩ => ⟨S8x256, .f32⟩
  | .hbm, ⟨14, _⟩ => ⟨S8x256, .f32⟩
  | .hbm, ⟨15, _⟩ => ⟨S8x256, .f32⟩
  | .hbm, ⟨16, _⟩ => ⟨S256x128, .f32⟩
  | .hbm, ⟨17, _⟩ => ⟨S8x128, .f32⟩
  | .hbm, ⟨18, _⟩ => ⟨S1x128, .f32⟩
  | .hbm, ⟨19, _⟩ => ⟨S8x128, .f32⟩
  | .hbm, ⟨20, _⟩ => ⟨S8x128, .f32⟩
  | .hbm, ⟨21, _⟩ => ⟨S8x64, .f32⟩
  | .hbm, ⟨22, _⟩ => ⟨S8x64, .f32⟩
  | .hbm, ⟨23, _⟩ => ⟨S1000000x1, .i32⟩
  | .hbm, ⟨24, _⟩ => ⟨S1000000, .i32⟩
  | .hbm, ⟨25, _⟩ => ⟨S1000000x1, .i32⟩
  | .hbm, ⟨26, _⟩ => ⟨S1x64, .f32⟩
  | .hbm, ⟨27, _⟩ => ⟨S1x64, .f32⟩
  | .hbm, ⟨28, _⟩ => ⟨S1000000x64, .f32⟩
  | .local _ .vmem, ⟨0, _⟩ => ⟨S8000x64, .f32⟩
  | .local _ .vmem, ⟨1, _⟩ => ⟨S8000x64, .f32⟩
  | .local _ .vmem, ⟨2, _⟩ => ⟨S8000x1, .i32⟩
  | .local _ .vmem, ⟨3, _⟩ => ⟨S8000x1, .i32⟩
  | .local _ .vmem, ⟨4, _⟩ => ⟨S8x64, .f32⟩
  | .local _ .vmem, ⟨5, _⟩ => ⟨S8x64, .f32⟩
  | .local _ .vmem, ⟨6, _⟩ => ⟨S1x64, .f32⟩
  | .local _ .vmem, ⟨7, _⟩ => ⟨S1x64, .f32⟩
  | .local _ .vmem, ⟨8, _⟩ => ⟨S8000x64, .f32⟩
  | .local _ .vmem, ⟨9, _⟩ => ⟨S8000x64, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S8x256 : S_.BroadcastsInDim S8x256 (![] : Fin 0 → Fin S8x256.rank)
  transposes_S128x256_S256x128_1_0 : S128x256.Transposes [1, 0] S256x128
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  slices_S8x128_S8x64_0_0 : S8x128.Slices ![0, 0] S8x64
  slices_S8x128_S8x64_0_64 : S8x128.Slices ![0, 64] S8x64
  slices_S1000000x4_S1000000x1_0_0 : S1000000x4.Slices ![0, 0] S1000000x1
  shapeCasts_S1000000x1_S1000000 : S1000000x1.ShapeCasts S1000000
  shapeCasts_S1000000_S1000000x1 : S1000000.ShapeCasts S1000000x1
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  reduces_S8000x64_S8000 : S8000x64.Reduces [1] S8000
  shapeCasts_S8000_S8000x1 : S8000.ShapeCasts S8000x1
  broadcasts_S8000x1_S8000x64 : S8000x1.Broadcasts S8000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  iota_S8000x8_d1_w32 : S8000x8.Iotas .tc 32 [1]
  broadcasts_S8000x1_S8000x8 : S8000x1.Broadcasts S8000x8
  natLt_1_32 : 1 < 32
  inb_S8x64_S8x64_0_0 : ∀ a, (![0, 0] : Fin 2 → Nat) a + S8x64.size a ≤ S8x64.size a
  h_S8x64 : 0 < S8x64.numel
  shapeCasts_S8x64_S8x64 : S8x64.ShapeCasts S8x64
  dot_S8x256_S256x128_S8x128_1_0_0_1_n_n_wf : DotDims.WF S8x256 S256x128 S8x128 [1] [0] [0] [1] [] []
  dot_S8000x8_S8x64_S8000x64_1_0_0_1_n_n_wf : DotDims.WF S8000x8 S8x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .f32 = 32 ∨ (Rect.block (s := S1000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S1000000x1.size a
  hwx0_1 : ∀ i : grid0.Coords, EltTy.bits .i32 = 32 ∨ (Rect.block (s := S1000000x1) S8000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S8x64.size a
  hwx0_2 : ∀ i : grid0.Coords, EltTy.bits .f32 = 32 ∨ (Rect.block (s := S8x64) S8x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S8x64.size a
  hwx0_3 : ∀ i : grid0.Coords, EltTy.bits .f32 = 32 ∨ (Rect.block (s := S8x64) S8x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x64.size a ≤ S1000000x64.size a
  hwx0_6 : ∀ i : grid0.Coords, EltTy.bits .f32 = 32 ∨ (Rect.block (s := S1000000x64) S8000x64.size (cc0_transform_6 i) (hinb0_6 i)).WholeWords (EltTy.packing .f32)

variable [Facts₀]

def dot_S8x256_S256x128_S8x128_1_0_0_1_n_n : DotDims S8x256 S256x128 S8x128 where
  lhsContracting := [1]
  rhsContracting := [0]
  lhsNonContracting := [0]
  rhsNonContracting := [1]
  lhsBatch := []
  rhsBatch := []
  wf := dot_S8x256_S256x128_S8x128_1_0_0_1_n_n_wf
def dot_S8000x8_S8x64_S8000x64_1_0_0_1_n_n : DotDims S8000x8 S8x64 S8000x64 where
  lhsContracting := [1]
  rhsContracting := [0]
  lhsNonContracting := [0]
  rhsNonContracting := [1]
  lhsBatch := []
  rhsBatch := []
  wf := dot_S8000x8_S8x64_S8000x64_1_0_0_1_n_n_wf

abbrev win0_0 : Pipeline.Window sig grid0 :=
  Pipeline.Window.ofSpec (Memref.whole main_arg0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S8x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S8000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S8x256 : Shape := ⟨2, ![8, 256]⟩
abbrev S64 : Shape := ⟨1, ![64]⟩
abbrev S128x256 : Shape := ⟨2, ![128, 256]⟩
abbrev S128 : Shape := ⟨1, ![128]⟩
abbrev S1000000x4 : Shape := ⟨2, ![1000000, 4]⟩
abbrev S_ : Shape := ⟨0, ![]⟩
abbrev S1000000 : Shape := ⟨1, ![1000000]⟩
abbrev S1000000x1 : Shape := ⟨2, ![1000000, 1]⟩
abbrev S1x64 : Shape := ⟨2, ![1, 64]⟩
abbrev S256x128 : Shape := ⟨2, ![256, 128]⟩
abbrev S8x128 : Shape := ⟨2, ![8, 128]⟩
abbrev S1x128 : Shape := ⟨2, ![1, 128]⟩
abbrev S8x64 : Shape := ⟨2, ![8, 64]⟩

abbrev nBuf : Space → Nat
  | .hbm => 77
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S8x256, .f32⟩
  | .hbm, ⟨2, _⟩ => ⟨S64, .f32⟩
  | .hbm, ⟨3, _⟩ => ⟨S64, .f32⟩
  | .hbm, ⟨4, _⟩ => ⟨S128x256, .f32⟩
  | .hbm, ⟨5, _⟩ => ⟨S128, .f32⟩
  | .hbm, ⟨6, _⟩ => ⟨S1000000x4, .i32⟩
  | .hbm, ⟨7, _⟩ => ⟨S_, .f32⟩
  | .hbm, ⟨8, _⟩ => ⟨S1000000, .f32⟩
  | .hbm, ⟨9, _⟩ => ⟨S1000000x1, .f32⟩
  | .hbm, ⟨10, _⟩ => ⟨S_, .f32⟩
  | .hbm, ⟨11, _⟩ => ⟨S1000000x1, .f32⟩
  | .hbm, ⟨12, _⟩ => ⟨S1000000x1, .f32⟩
  | .hbm, ⟨13, _⟩ => ⟨S1000000x64, .f32⟩
  | .hbm, ⟨14, _⟩ => ⟨S1000000x64, .f32⟩
  | .hbm, ⟨15, _⟩ => ⟨S1000000x64, .f32⟩
  | .hbm, ⟨16, _⟩ => ⟨S_, .f32⟩
  | .hbm, ⟨17, _⟩ => ⟨S1000000, .f32⟩
  | .hbm, ⟨18, _⟩ => ⟨S1000000x1, .f32⟩
  | .hbm, ⟨19, _⟩ => ⟨S_, .f32⟩
  | .hbm, ⟨20, _⟩ => ⟨S1000000x1, .f32⟩
  | .hbm, ⟨21, _⟩ => ⟨S1000000x1, .f32⟩
  | .hbm, ⟨22, _⟩ => ⟨S1000000x64, .f32⟩
  | .hbm, ⟨23, _⟩ => ⟨S1000000x64, .f32⟩
  | .hbm, ⟨24, _⟩ => ⟨S_, .f32⟩
  | .hbm, ⟨25, _⟩ => ⟨S1000000x1, .f32⟩
  | .hbm, ⟨26, _⟩ => ⟨S1000000x1, .f32⟩
  | .hbm, ⟨27, _⟩ => ⟨S1000000x1, .f32⟩
  | .hbm, ⟨28, _⟩ => ⟨S1000000x64, .f32⟩
  | .hbm, ⟨29, _⟩ => ⟨S1000000x64, .f32⟩
  | .hbm, ⟨30, _⟩ => ⟨S1x64, .f32⟩
  | .hbm, ⟨31, _⟩ => ⟨S1000000x64, .f32⟩
  | .hbm, ⟨32, _⟩ => ⟨S1000000x64, .f32⟩
  | .hbm, ⟨33, _⟩ => ⟨S1x64, .f32⟩
  | .hbm, ⟨34, _⟩ => ⟨S1000000x64, .f32⟩
  | .hbm, ⟨35, _⟩ => ⟨S1000000x64, .f32⟩
  | .hbm, ⟨36, _⟩ => ⟨S8x256, .f32⟩
  | .hbm, ⟨37, _⟩ => ⟨S8x256, .f32⟩
  | .hbm, ⟨38, _⟩ => ⟨S_, .f32⟩
  | .hbm, ⟨39, _⟩ => ⟨S8x256, .f32⟩
  | .hbm, ⟨40, _⟩ => ⟨S8x256, .f32⟩
  | .hbm, ⟨41, _⟩ => ⟨S_, .f32⟩
  | .hbm, ⟨42, _⟩ => ⟨S8x256, .f32⟩
  | .hbm, ⟨43, _⟩ => ⟨S8x256, .f32⟩
  | .hbm, ⟨44, _⟩ => ⟨S8x256, .f32⟩
  | .hbm, ⟨45, _⟩ => ⟨S256x128, .f32⟩
  | .hbm, ⟨46, _⟩ => ⟨S8x128, .f32⟩
  | .hbm, ⟨47, _⟩ => ⟨S1x128, .f32⟩
  | .hbm, ⟨48, _⟩ => ⟨S8x128, .f32⟩
  | .hbm, ⟨49, _⟩ => ⟨S8x128, .f32⟩
  | .hbm, ⟨50, _⟩ => ⟨S8x64, .f32⟩
  | .hbm, ⟨51, _⟩ => ⟨S8x64, .f32⟩
  | .hbm, ⟨52, _⟩ => ⟨S1000000x1, .i32⟩
  | .hbm, ⟨53, _⟩ => ⟨S1000000, .i32⟩
  | .hbm, ⟨54, _⟩ => ⟨S_, .i32⟩
  | .hbm, ⟨55, _⟩ => ⟨S1000000, .i32⟩
  | .hbm, ⟨56, _⟩ => ⟨S1000000, .i1⟩
  | .hbm, ⟨57, _⟩ => ⟨S_, .i32⟩
  | .hbm, ⟨58, _⟩ => ⟨S1000000, .i32⟩
  | .hbm, ⟨59, _⟩ => ⟨S1000000, .i32⟩
  | .hbm, ⟨60, _⟩ => ⟨S1000000, .i32⟩
  | .hbm, ⟨61, _⟩ => ⟨S1000000x1, .i32⟩
  | .hbm, ⟨62, _⟩ => ⟨S1000000x64, .f32⟩
  | .hbm, ⟨63, _⟩ => ⟨S_, .f32⟩
  | .hbm, ⟨64, _⟩ => ⟨S1000000x64, .f32⟩
  | .hbm, ⟨65, _⟩ => ⟨S1000000x64, .f32⟩
  | .hbm, ⟨66, _⟩ => ⟨S1000000x64, .f32⟩
  | .hbm, ⟨67, _⟩ => ⟨S_, .i32⟩
  | .hbm, ⟨68, _⟩ => ⟨S1000000, .i32⟩
  | .hbm, ⟨69, _⟩ => ⟨S1000000, .i1⟩
  | .hbm, ⟨70, _⟩ => ⟨S_, .i32⟩
  | .hbm, ⟨71, _⟩ => ⟨S1000000, .i32⟩
  | .hbm, ⟨72, _⟩ => ⟨S1000000, .i32⟩
  | .hbm, ⟨73, _⟩ => ⟨S1000000, .i32⟩
  | .hbm, ⟨74, _⟩ => ⟨S1000000x1, .i32⟩
  | .hbm, ⟨75, _⟩ => ⟨S1000000x64, .f32⟩
  | .hbm, ⟨76, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c : Ref sig .tc := ⟨.hbm, 54, rfl⟩
abbrev main_v34 : Ref sig .tc := ⟨.hbm, 55, rfl⟩
abbrev main_v35 : Ref sig .tc := ⟨.hbm, 56, rfl⟩
abbrev main_c_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_6 : Ref sig .tc := ⟨.hbm, 67, rfl⟩
abbrev main_v44 : Ref sig .tc := ⟨.hbm, 68, rfl⟩
abbrev main_v45 : Ref sig .tc := ⟨.hbm, 69, rfl⟩
abbrev main_c_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩

abbrev nD : Nat := 1
abbrev τ : Topo := Topo.v7x

variable {F : FTy → Type} [FloatOps F]

class Facts₀ : Prop where
  reducesTo_S1000000x64_S1000000_d1 : S1000000x64.ReducesTo [1] S1000000
  h_S_ : 0 < S_.numel
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S8x256 : S_.BroadcastsInDim S8x256 (![] : Fin 0 → Fin S8x256.rank)
  transposes_S128x256_S256x128_1_0 : S128x256.Transposes [1, 0] S256x128
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  slices_S8x128_S8x64_0_0 : S8x128.Slices ![0, 0] S8x64
  slices_S8x128_S8x64_0_64 : S8x128.Slices ![0, 64] S8x64
  slices_S1000000x4_S1000000x1_0_0 : S1000000x4.Slices ![0, 0] S1000000x1
  shapeCasts_S1000000x1_S1000000 : S1000000x1.ShapeCasts S1000000
  bcast_S_S1000000 : S_.BroadcastsInDim S1000000 (![] : Fin 0 → Fin S1000000.rank)
  bcast_S_S1000000x64 : S_.BroadcastsInDim S1000000x64 (![] : Fin 0 → Fin S1000000x64.rank)
  dot_S8x256_S256x128_S8x128_1_0_0_1_n_n_wf : DotDims.WF S8x256 S256x128 S8x128 [1] [0] [0] [1] [] []
  gather_S8x64_S1000000x1_S1000000x64_1_0_n_n_0_1_164_wf : GatherDims.WF S8x64 S1000000x1 S1000000x64 [1] [0] [] [0] [] 1 ![1, 64]

variable [Facts₀]

def dot_S8x256_S256x128_S8x128_1_0_0_1_n_n : DotDims S8x256 S256x128 S8x128 where
  lhsContracting := [1]
  rhsContracting := [0]
  lhsNonContracting := [0]
  rhsNonContracting := [1]
  lhsBatch := []
  rhsBatch := []
  wf := dot_S8x256_S256x128_S8x128_1_0_0_1_n_n_wf
def gather_S8x64_S1000000x1_S1000000x64_1_0_n_n_0_1_164 : GatherDims S8x64 S1000000x1 S1000000x64 where
  offsetDims := [1]
  collapsedSliceDims := [0]
  operandBatchingDims := []
  startIndicesBatchingDims := []
  startIndexMap := [0]
  indexVectorDim := 1
  sliceSizes := ![1, 64]
  wf := gather_S8x64_S1000000x1_S1000000x64_1_0_n_n_0_1_164_wf

class Facts : Prop extends Facts₀ where

variable [Facts]
-- ==== Proof.Spec.lean ====
/-
  The function both programs compute, on the extended reals.

  A point's feature row `x : Fin 64 → EReal` is normalised over its 64 entries — mean `μ = (∑ x) / 64`, variance
  `σ² = (∑ (x - μ)²) / 64`, `(x c - μ) · rsqrt (σ² + ε) · γ c + β c` — and then modulated by the row of two 8 × 64 tables
  that the point's batch id `k` selects: `normed · (1 + scale (k, c)) + shift (k, c)`.
  The three literals are kept as the words both programs print (64.0, the f32 nearest 1e-5, 1.0): the same word on
  both sides is never evaluated.
-/
import Idealize.ShloMosaic.PureOps.Ideal
import Idealize.ShloMosaic.Lib.ValueIdx

noncomputable section

open scoped BigOperators

namespace Cert.PointNorm

open Idealize.ShloMosaic Idealize.ShloMosaic.ValueIdx

/-- The row length as a float, 64.0. -/
abbrev c64 : EReal := Ideal.ofBits .f32 0x42800000#32
/-- The variance's guard ε, the f32 nearest 1e-5. -/
abbrev ceps : EReal := Ideal.ofBits .f32 0x3727C5AC#32
/-- 1.0. -/
abbrev cone : EReal := Ideal.ofBits .f32 0x3F800000#32

/-- The mean of a row. -/
def mean (x : Fin 64 → EReal) : EReal := Ideal.div (∑ k : Fin 64, x k) c64

/-- The (biased) variance of a row. -/
def var (x : Fin 64 → EReal) : EReal := Ideal.div (∑ k : Fin 64, (x k - mean x) * (x k - mean x)) c64

/-- Entry `c` of the normalised row under the affine pair `(g, b)` of that column. -/
def lnorm (x : Fin 64 → EReal) (g b : EReal) (c : Fin 64) : EReal :=
  (x c - mean x) * Ideal.rsqrt (var x + ceps) * g + b

/-- Entry `c` of the modulated row: `sc`, `sh` are the selected table row's entries of that column. -/
def film (x : Fin 64 → EReal) (g b sc sh : EReal) (c : Fin 64) : EReal :=
  lnorm x g b c * (cone + sc) + sh

/-- The whole result array: point `r`'s row of `x`, normalised under `(γ, β)` and modulated by row `kOf r` of the two
    tables. `kOf` is the point's batch id as an index of the tables' rows. -/
def out (x : (⟨2, ![1000000, 64]⟩ : Shape).Idx → EReal) (gam bet : (⟨1, ![64]⟩ : Shape).Idx → EReal)
    (shiftT scaleT : (⟨2, ![8, 64]⟩ : Shape).Idx → EReal) (kOf : Fin 1000000 → Fin 8) :
    (⟨2, ![1000000, 64]⟩ : Shape).Idx → EReal :=
  fun i => film (fun k => x (ix2 (i 0) k)) (gam (ix1 (i 1))) (bet (ix1 (i 1)))
    (scaleT (ix2 (kOf (i 0)) (i 1))) (shiftT (ix2 (kOf (i 0)) (i 1))) (i 1)

theorem out_apply (x : (⟨2, ![1000000, 64]⟩ : Shape).Idx → EReal) (gam bet : (⟨1, ![64]⟩ : Shape).Idx → EReal)
    (shiftT scaleT : (⟨2, ![8, 64]⟩ : Shape).Idx → EReal) (kOf : Fin 1000000 → Fin 8) (r : Fin 1000000) (c : Fin 64) :
    out x gam bet shiftT scaleT kOf (ix2 r c)
      = film (fun k => x (ix2 r k)) (gam (ix1 c)) (bet (ix1 c)) (scaleT (ix2 (kOf r) c)) (shiftT (ix2 (kOf r) c)) c := rfl

/-- The batch id a 32-bit word names, as a row of an 8-row table (the word's value below 8; reduced mod 8 so that the
    function is total — under the precondition no reduction happens). -/
def rowOfWord (w : BitVec 32) : Fin 8 := ⟨w.toNat % 8, Nat.mod_lt _ (by decide)⟩

/-- A word that reads, signed, in `[0, 8)` is the word of its row. -/
theorem word_eq_of_range (w : BitVec 32) (h0 : 0 ≤ w.toInt) (h8 : w.toInt < 8) :
    w = BitVec.ofNat 32 (rowOfWord w).val := by
  have hlt := w.isLt
  have hn : w.toNat < 8 := by
    rw [BitVec.toInt_eq_toNat_cond] at h0 h8
    split at h0 <;> omega
  apply BitVec.eq_of_toNat_eq
  rw [BitVec.toNat_ofNat]
  show w.toNat = w.toNat % 8 % 2 ^ 32
  omega

end Cert.PointNorm

end
-- ==== Proof.LibRowTake.lean ====
/-
  A table's row selected by an index column, read two ways.

  (1) THE ROW GATHER. jnp's `T[idx]` for a matrix `T : [K, C]` and a column of start indices `[n, 1]` is a
      `stablehlo.gather` whose axis 0 is collapsed and start-indexed, whose axis 1 is the one offset axis, with no
      batching axes and the index vector on axis 1. Its entry `(r, c)` is `T (k, c)`, where `k` is row `r`'s start
      index read signed and clamped into `[0, K - 1]` (`gather_rows`); when the word is the word of some `k₀ < K`
      that row is `k₀` itself (`gather_rows_of_word`).
  (2) THE ONE-HOT PRODUCT. Over the extended reals `∑ k, e k * T k = T k₀` when `e k₀ = 1` and `e k = 0` for
      `k ≠ k₀` (`sum_onehot_mul`): `0 * a = 0` and `a + 0 = a` hold for every extended real, the infinities included,
      so no finiteness is asked of `T`. The row `e` a kernel builds from a 32-bit word `w` — compare `w` with the word
      of each `k`, widen the bit to 32 bits, convert to a float — is that `e` when `w` is the word of `k₀`
      (`onehotWord`, `sum_onehotWord_mul`).
  So a matrix product with that one-hot row and the row gather read the same entry of the table.
-/
import Idealize.ShloMosaic.PureOps.Ideal
import Idealize.ShloMosaic.Lib.ValueIdx

noncomputable section

open scoped BigOperators

namespace Cert.RowTake

open Idealize.ShloMosaic Idealize.ShloMosaic.ValueIdx

/-! ## The row gather -/

/-- Entry `(r, c)` of the row gather is the table at `(k, c)`, `k` the start index of row `r` read signed and clamped
    into `[0, K - 1]`. The hypotheses are the printed dimension numbers, each by `rfl`. -/
theorem gather_rows {α : Type} {K C n w : Nat} (hK : 0 < K)
    (d : GatherDims ⟨2, ![K, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![K, C]⟩ : Shape).Idx → α) (idx : IVec ⟨2, ![n, 1]⟩ w) (r : Fin n) (c : Fin C) :
    Host.gather d x idx (ix2 r c)
      = x (ix2 (⟨min (idx (ix2 r (0 : Fin 1))).toInt.toNat (K - 1), by omega⟩ : Fin K) c) := by
  unfold Host.gather
  congr 1
  funext a
  apply Fin.ext
  have hb : ∀ a : Fin 2, a ∉ d.operandBatchingDims := fun a => by rw [hob]; exact List.not_mem_nil
  -- every offset axis of the result is axis 1, every batch axis is axis 0
  have hall1 : ∀ a ∈ d.offsetDims, a = (1 : Fin 2) := by
    rw [hoff]; intro a ha; exact List.mem_singleton.mp ha
  have hall0 : ∀ a ∈ d.batchDims, a = (0 : Fin 2) := by
    intro a ha
    have hne : a ∉ d.offsetDims := by
      have := (List.mem_filter.mp ha).2
      simpa using this
    rw [hoff, List.mem_singleton] at hne
    match a, hne with
    | ⟨0, _⟩, _ => rfl
    | ⟨1, _⟩, hne => exact absurd rfl hne
  match a with
  | ⟨0, _⟩ =>
    -- the collapsed, start-indexed axis: the clamped start index, nothing added
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 r c) idx 0 + d.batchCoord (ix2 r c) 0 + d.offCoord (ix2 r c) 0 = _
    rw [GatherDims.batchCoord_eq_zero _ _ _ (hb 0), GatherDims.offCoord_eq_zero _ _ _ hk]
    simp only [Nat.add_zero]
    unfold GatherDims.start
    rw [dif_pos hm]
    show min (idx _).toInt.toNat (K - d.sliceSizes 0) = min (idx (ix2 r (0 : Fin 1))).toInt.toNat (K - 1)
    rw [hsl]
    congr 3
    congr 1
    funext b
    match b with
    | ⟨0, _⟩ =>
      -- the start indices' row is the result's batch coordinate, its row
      unfold GatherDims.siIdx
      rw [dif_neg (by rw [hivd]; simp)]
      unfold GatherDims.siCoord
      apply Fin.ext
      simp only [Fin.val_cast]
      have e : ∀ X : Fin 2, X = 0 → ((ix2 r c : (⟨2, ![n, C]⟩ : Shape).Idx) X).val = r.val := fun X hX => by
        subst hX; rfl
      exact e _ (hall0 _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    -- the offset axis: no start, the result's column
    have hm : (1 : Fin 2) ∉ d.startIndexMap := by rw [hsim]; simp
    have hk : (1 : Fin 2) ∈ d.sKept := by rw [GatherDims.mem_sKept, hcoll]; exact ⟨by simp, hb 1⟩
    show d.start (ix2 r c) idx 1 + d.batchCoord (ix2 r c) 1 + d.offCoord (ix2 r c) 1 = c.val
    rw [GatherDims.batchCoord_eq_zero _ _ _ (hb 1)]
    unfold GatherDims.start GatherDims.offCoord
    rw [dif_neg hm, dif_pos hk]
    simp only [Nat.add_zero, Nat.zero_add]
    have e : ∀ X : Fin 2, X = 1 → ((ix2 r c : (⟨2, ![n, C]⟩ : Shape).Idx) X).val = c.val := fun X hX => by
      subst hX; rfl
    exact e _ (hall1 _ (List.getElem_mem _))

/-- A 32-bit word that is the word of `k < 2 ^ 31`, read signed, is `k`. -/
theorem toInt_toNat_ofNat (k : Nat) (hk : k < 2147483648) : (BitVec.ofNat 32 k).toInt.toNat = k := by
  have h1 : (BitVec.ofNat 32 k).toNat = k := by
    rw [BitVec.toNat_ofNat]; exact Nat.mod_eq_of_lt (by omega)
  rw [BitVec.toInt_eq_toNat_cond, h1]
  have : 2 * k < 2 ^ 32 := by omega
  rw [if_pos this]
  simp

/-- The row gather at a start index that is the word of `k₀ < K`: row `k₀`, no clamp. -/
theorem gather_rows_of_word {α : Type} {K C n : Nat} (hK32 : K ≤ 2147483648)
    (d : GatherDims ⟨2, ![K, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![K, C]⟩ : Shape).Idx → α) (idx : IVec ⟨2, ![n, 1]⟩ 32) (r : Fin n) (c : Fin C) (k₀ : Fin K)
    (hw : idx (ix2 r (0 : Fin 1)) = BitVec.ofNat 32 k₀.val) :
    Host.gather d x idx (ix2 r c) = x (ix2 k₀ c) := by
  have hk0 := k₀.isLt
  rw [gather_rows (by omega) d hoff hcoll hob hsim hivd]
  congr 2
  apply Fin.ext
  show min (idx (ix2 r (0 : Fin 1))).toInt.toNat (K - 1) = k₀.val
  rw [hw, toInt_toNat_ofNat _ (by omega)]
  omega

/-! ## The one-hot product -/

/-- A sum of products with a one-hot row is the entry it selects, on the extended reals. -/
theorem sum_onehot_mul {K : Nat} (e T : Fin K → EReal) (k₀ : Fin K) (h1 : e k₀ = 1) (h0 : ∀ k, k ≠ k₀ → e k = 0) :
    ∑ k : Fin K, e k * T k = T k₀ := by
  rw [Finset.sum_eq_single k₀ (fun k _ hk => by rw [h0 k hk, zero_mul])
    (fun h => absurd (Finset.mem_univ _) h), h1, one_mul]

/-- The float a kernel makes of "word `w` is `k`": the comparison's bit, widened to 32 bits, converted signed. -/
def onehotWord (w : BitVec 32) (k : Nat) : EReal :=
  ((((IntOp.cmpi .eq w (BitVec.ofNat 32 k)).setWidth 32).toInt : ℝ) : EReal)

theorem onehotWord_self (k : Nat) : onehotWord (BitVec.ofNat 32 k) k = 1 := by
  unfold onehotWord IntOp.cmpi
  simp

theorem onehotWord_ne (k₀ k : Nat) (h0 : k₀ < 4294967296) (hk : k < 4294967296) (hne : k ≠ k₀) :
    onehotWord (BitVec.ofNat 32 k₀) k = 0 := by
  unfold onehotWord IntOp.cmpi
  have hneq : (BitVec.ofNat 32 k₀ == BitVec.ofNat 32 k) = false := by
    rw [beq_eq_false_iff_ne]
    intro h
    have := congrArg BitVec.toNat h
    rw [BitVec.toNat_ofNat, BitVec.toNat_ofNat, Nat.mod_eq_of_lt (by omega), Nat.mod_eq_of_lt (by omega)] at this
    exact hne this.symm
  simp [hneq]

/-- The product of the one-hot row of word `w` with a table's column is the table at the row `w` names. -/
theorem sum_onehotWord_mul {K : Nat} (hK : K ≤ 4294967296) (w : BitVec 32) (T : Fin K → EReal) (k₀ : Fin K)
    (hw : w = BitVec.ofNat 32 k₀.val) :
    ∑ k : Fin K, onehotWord w k.val * T k = T k₀ := by
  subst hw
  have h0 := k₀.isLt
  exact sum_onehot_mul _ T k₀ (onehotWord_self _)
    (fun k hk => onehotWord_ne _ _ (by omega) (by have := k.isLt; omega) (fun h => hk (Fin.ext h)))

end Cert.RowTake

end
-- ==== Proof.KernelBlock.lean ====
/-
  One grid point of the idealized kernel, read at an entry of its block.

  At a point the body holds the point's 8000 × 64 block `P0` of `x`, the 1 × 64 rows `P1`, `P2` (γ and β), the
  8000 × 1 column `P3` of batch ids and the two whole 8 × 64 tables (`P4` the scale table, `P5` the shift table), and
  stores ONE 8000 × 64 value. The generated value leg reads that stored block at an index `y` as a pointwise expression
  `E6 … y` whose leaves are: a row sum of `P0` (for the mean), a row sum of the squared centred block (for the variance),
  and two matrix products of the one-hot rows built from `P3` with the tables. Here each leaf is read at `y = (p, q)`:
    · a lane sum over axis 1 at row `p` is `∑ k, src (p, k)`;
    · the keepdims column `[8000] → [8000, 1] → [8000, 64]` reads row `p` whatever the column;
    · the product of the one-hot row of the word `P3 (p, 0)` with a table is, when that word is the word of `k₀ < 8`,
      the table's entry `(k₀, q)` — `0 · a = 0` and `a + 0 = a` on every extended real, so nothing is asked of the table;
  and the whole is `Cert.PointNorm.film` of row `p` of the block.
-/
import proofs.«408608_j37606733644287_2_alg».proof.Proof.Gen.KernelIdeal.Value
import proofs.«408608_j37606733644287_2_alg».proof.Proof.Spec
import proofs.«408608_j37606733644287_2_alg».proof.Proof.LibRowTake
import Idealize.ShloMosaic.PureOps.Ideal.Laws
import Idealize.ShloMosaic.Lib.Pipeline.Value
import Idealize.ShloMosaic.Lib.ValueIdx

noncomputable section

open scoped BigOperators

namespace Cert.KernelIdeal.PointNorm

open Cert.KernelIdeal Cert.KernelIdeal.Gen Cert.KernelIdeal.Value Idealize.ShloMosaic Idealize.ShloMosaic.ValueIdx
open Cert.PointNorm

/-! ## The lane sum and the keepdims column -/

/-- A lane sum over the 64 columns, at row `p`: the sum of that row's entries (the zero accumulator adds nothing). -/
theorem rowsum (src : FVec Ideal S8000x64 .f32) (p : Fin 8000) :
    multiReduction .add [1] S8000 src 0x00000000#32 reduces_S8000x64_S8000 (.inl rfl) rfl (ix1 p)
      = ∑ k : Fin 64, src (ix2 p k) := by
  refine (Ideal.multiReduction_add_single src 0x00000000#32 reduces_S8000x64_S8000 (.inl rfl) rfl (ix1 p)).trans ?_
  refine Finset.sum_congr rfl fun k _ => ?_
  exact congrArg src (funext fun a => Fin.ext (by match a with | ⟨0, _⟩ => rfl | ⟨1, _⟩ => rfl))

/-- A vector of row values kept as a column and laid over the block reads, at `(p, k)`, the value of row `p`. -/
theorem column_over_block {α : Type} (v : S8000.Idx → α) (p : Fin 8000) :
    shapeCast S8000x1 v shapeCasts_S8000_S8000x1 (ix2 p (0 : Fin 1)) = v (ix1 p) :=
  shapeCast_apply _ _ (ix2 p (0 : Fin 1)) (ix1 p)
    (by rw [Shape.rowMajor_val_one, Shape.rowMajor_val_two]; show p.val = p.val * 1 + 0; omega)

theorem broadcast_column {α : Type} (v : S8000x1.Idx → α) (p : Fin 8000) (k : Fin 64) :
    broadcastTo S8000x64 v broadcasts_S8000x1_S8000x64 (ix2 p k) = v (ix2 p (0 : Fin 1)) :=
  broadcastTo_apply _ _ (ix2 p k) (ix2 p (0 : Fin 1)) (fun a => match a with
    | ⟨0, _⟩ => by show p.val = (if (8000 : Nat) = 1 then 0 else p.val); rw [if_neg (by decide)]
    | ⟨1, _⟩ => by show 0 = (if (1 : Nat) = 1 then 0 else k.val); rw [if_pos rfl])

/-- The block's mean column: at `(p, k)` it is the mean of row `p`. -/
theorem mean_column (P0 : FVec Ideal S8000x64 .f32) (p : Fin 8000) (k : Fin 64) :
    broadcastTo S8000x64 (divf (shapeCast S8000x1 (multiReduction .add [1] S8000 P0 0x00000000#32 reduces_S8000x64_S8000 (.inl rfl) rfl) shapeCasts_S8000_S8000x1)
        (broadcast S8000x1 (Scalar.ofBits .f32 0x42800000#32))) broadcasts_S8000x1_S8000x64 (ix2 p k)
      = mean (fun k => P0 (ix2 p k)) := by
  rw [broadcast_column]
  show Ideal.div (shapeCast S8000x1 _ shapeCasts_S8000_S8000x1 (ix2 p (0 : Fin 1))) c64 = _
  rw [column_over_block, rowsum]
  rfl

/-! ## The one-hot product with a table -/

theorem lhs_oh_0 (i : S8000x64.Idx) (q : dot_S8000x8_S8x64_S8000x64_1_0_0_1_n_n.contr.Idx) :
    (dot_S8000x8_S8x64_S8000x64_1_0_0_1_n_n.lhsIdx i q 0).val = (i 0).val := by
  unfold DotDims.lhsIdx
  rw [dif_neg (show ¬(0 : Fin S8000x8.rank) ∈ dot_S8000x8_S8x64_S8000x64_1_0_0_1_n_n.lhsBatch by decide), dif_pos (show (0 : Fin S8000x8.rank) ∈ dot_S8000x8_S8x64_S8000x64_1_0_0_1_n_n.lhsNonContracting by decide)]
  rfl
theorem lhs_oh_1 (i : S8000x64.Idx) (q : dot_S8000x8_S8x64_S8000x64_1_0_0_1_n_n.contr.Idx) :
    (dot_S8000x8_S8x64_S8000x64_1_0_0_1_n_n.lhsIdx i q 1).val = (q ⟨0, by decide⟩).val :=
  dot_S8000x8_S8x64_S8000x64_1_0_0_1_n_n.lhsIdx_val_of_single rfl i q
theorem rhs_oh_0 (i : S8000x64.Idx) (q : dot_S8000x8_S8x64_S8000x64_1_0_0_1_n_n.contr.Idx) :
    (dot_S8000x8_S8x64_S8000x64_1_0_0_1_n_n.rhsIdx i q 0).val = (q ⟨0, by decide⟩).val :=
  dot_S8000x8_S8x64_S8000x64_1_0_0_1_n_n.rhsIdx_val_of_single rfl i q
theorem rhs_oh_1 (i : S8000x64.Idx) (q : dot_S8000x8_S8x64_S8000x64_1_0_0_1_n_n.contr.Idx) :
    (dot_S8000x8_S8x64_S8000x64_1_0_0_1_n_n.rhsIdx i q 1).val = (i 1).val := by
  unfold DotDims.rhsIdx
  rw [dif_neg (show ¬(1 : Fin S8x64.rank) ∈ dot_S8000x8_S8x64_S8000x64_1_0_0_1_n_n.rhsBatch by decide), dif_pos (show (1 : Fin S8x64.rank) ∈ dot_S8000x8_S8x64_S8000x64_1_0_0_1_n_n.rhsNonContracting by decide)]
  rfl

/-- A product into a zero accumulator of an 8000 × 8 matrix with an 8 × 64 table, at `(p, q)`: the sum over the 8 rows. -/
theorem matmul_entry (lhs : FVec Ideal S8000x8 .f32) (rhs : FVec Ideal S8x64 .f32) (p : Fin 8000) (q : Fin 64) :
    FloatOps.matmul dot_S8000x8_S8x64_S8000x64_1_0_0_1_n_n none lhs rhs (constant S8000x64 .f32 0x00000000#32) (ix2 p q)
      = ∑ k : Fin 8, lhs (ix2 p k) * rhs (ix2 k q) := by
  rw [Ideal.matmul_constant_zero_apply, ← Equiv.sum_comp (ValueIdx.contrEquiv1 dot_S8000x8_S8x64_S8000x64_1_0_0_1_n_n 8 rfl rfl).symm]
  refine Finset.sum_congr rfl fun k _ => ?_
  have hk := ValueIdx.contrEquiv1_symm_val dot_S8000x8_S8x64_S8000x64_1_0_0_1_n_n 8 rfl rfl k
  have el : dot_S8000x8_S8x64_S8000x64_1_0_0_1_n_n.lhsIdx (ix2 p q) ((ValueIdx.contrEquiv1 dot_S8000x8_S8x64_S8000x64_1_0_0_1_n_n 8 rfl rfl).symm k) = ix2 p k := funext fun a => Fin.ext (by
    match a with
    | ⟨0, _⟩ => exact lhs_oh_0 _ _
    | ⟨1, _⟩ => exact (lhs_oh_1 _ _).trans hk)
  have er : dot_S8000x8_S8x64_S8000x64_1_0_0_1_n_n.rhsIdx (ix2 p q) ((ValueIdx.contrEquiv1 dot_S8000x8_S8x64_S8000x64_1_0_0_1_n_n 8 rfl rfl).symm k) = ix2 k q := funext fun a => Fin.ext (by
    match a with
    | ⟨0, _⟩ => exact (rhs_oh_0 _ _).trans hk
    | ⟨1, _⟩ => exact rhs_oh_1 _ _)
  rw [el, er]

/-- The one-hot matrix the body builds from the id column, at `(p, k)`: the float of "the word of row `p` is `k`". -/
theorem onehot_entry (P3 : Vec Ideal S8000x1 .i32) (p : Fin 8000) (k : Fin 8) :
    k0_pay3 (F := Ideal) P3 (ix2 p k) = RowTake.onehotWord (P3 (ix2 p (0 : Fin 1))) k.val := by
  unfold k0_pay3 RowTake.onehotWord
  show ((((IntOp.cmpi .eq (broadcastTo S8000x8 (shapeCast S8000x1 P3 shapeCasts_S8000x1_S8000x1) broadcasts_S8000x1_S8000x8 (ix2 p k))
      (iota .tc S8000x8 32 [1] iota_S8000x8_d1_w32 (ix2 p k))).setWidth 32).toInt : ℝ) : EReal) = _
  rw [iota_single_apply, shapeCast_self]
  have eb : broadcastTo S8000x8 P3 broadcasts_S8000x1_S8000x8 (ix2 p k) = P3 (ix2 p (0 : Fin 1)) :=
    broadcastTo_apply _ _ (ix2 p k) (ix2 p (0 : Fin 1)) (fun a => match a with
      | ⟨0, _⟩ => by show p.val = (if (8000 : Nat) = 1 then 0 else p.val); rw [if_neg (by decide)]
      | ⟨1, _⟩ => by show 0 = (if (1 : Nat) = 1 then 0 else k.val); rw [if_pos rfl])
  rw [eb]

/-- The body's product of the one-hot matrix with a table, at `(p, q)`: the table's entry `(k₀, q)` when the id word of row
    `p` is the word of `k₀`. -/
theorem table_entry (P3 : Vec Ideal S8000x1 .i32) (T : FVec Ideal S8x64 .f32) (p : Fin 8000) (q : Fin 64) (k₀ : Fin 8)
    (hw : P3 (ix2 p (0 : Fin 1)) = BitVec.ofNat 32 k₀.val) :
    FloatOps.matmul dot_S8000x8_S8x64_S8000x64_1_0_0_1_n_n none (k0_pay3 (F := Ideal) P3) T (constant S8000x64 .f32 0x00000000#32) (ix2 p q)
      = T (ix2 k₀ q) := by
  rw [matmul_entry]
  simp only [onehot_entry]
  exact RowTake.sum_onehotWord_mul (by decide) _ (fun k => T (ix2 k q)) k₀ hw

/-- The body's scale product and shift product at `(p, q)`, under the id word of row `p`. -/
theorem scale_entry (P3 : Vec Ideal S8000x1 .i32) (P4 : Vec Ideal S8x64 .f32) (p : Fin 8000) (q : Fin 64) (k₀ : Fin 8)
    (hw : P3 (ix2 p (0 : Fin 1)) = BitVec.ofNat 32 k₀.val) :
    k0_pay5 (F := Ideal) P3 P4 (ix2 p q) = P4 (ix2 k₀ q) := by
  unfold k0_pay5
  rw [shapeCast_self]
  exact table_entry P3 P4 p q k₀ hw

theorem shift_entry (P3 : Vec Ideal S8000x1 .i32) (P5 : Vec Ideal S8x64 .f32) (p : Fin 8000) (q : Fin 64) (k₀ : Fin 8)
    (hw : P3 (ix2 p (0 : Fin 1)) = BitVec.ofNat 32 k₀.val) :
    k0_pay4 (F := Ideal) P3 P5 (ix2 p q) = P5 (ix2 k₀ q) := by
  unfold k0_pay4
  rw [shapeCast_self]
  exact table_entry P3 P5 p q k₀ hw

/-! ## The stored block at an entry -/

/-- The sum of the squared centred row. -/
theorem sqsum (P0 : FVec Ideal S8000x64 .f32) (p : Fin 8000) :
    multiReduction .add [1] S8000 (mulf (subf P0 (broadcastTo S8000x64 (divf (shapeCast S8000x1 (multiReduction .add [1] S8000 P0 0x00000000#32 reduces_S8000x64_S8000 (.inl rfl) rfl) shapeCasts_S8000_S8000x1) (broadcast S8000x1 (Scalar.ofBits .f32 0x42800000#32))) broadcasts_S8000x1_S8000x64))
        (subf P0 (broadcastTo S8000x64 (divf (shapeCast S8000x1 (multiReduction .add [1] S8000 P0 0x00000000#32 reduces_S8000x64_S8000 (.inl rfl) rfl) shapeCasts_S8000_S8000x1) (broadcast S8000x1 (Scalar.ofBits .f32 0x42800000#32))) broadcasts_S8000x1_S8000x64)))
        0x00000000#32 reduces_S8000x64_S8000 (.inl rfl) rfl (ix1 p)
      = ∑ k : Fin 64, (P0 (ix2 p k) - mean (fun k => P0 (ix2 p k))) * (P0 (ix2 p k) - mean (fun k => P0 (ix2 p k))) := by
  rw [rowsum]
  refine Finset.sum_congr rfl fun k _ => ?_
  show (P0 (ix2 p k) - _) * (P0 (ix2 p k) - _) = _
  rw [mean_column]

/-- THE STORED BLOCK AT `(p, q)`: row `p` of the point's block, normalised under the affine pair of column `q` and
    modulated by row `k₀` of the two tables, `k₀` the batch id of row `p`. -/
theorem block_entry (P0 : Vec Ideal S8000x64 .f32) (P1 P2 : Vec Ideal S1x64 .f32) (P3 : Vec Ideal S8000x1 .i32)
    (P4 P5 : Vec Ideal S8x64 .f32) (p : Fin 8000) (q : Fin 64) (k₀ : Fin 8)
    (hw : P3 (ix2 p (0 : Fin 1)) = BitVec.ofNat 32 k₀.val) :
    E6 (F := Ideal) P0 P1 P2 P3 P4 P5 (ix2 p q)
      = film (fun k => P0 (ix2 p k)) (P1 (ix2 (0 : Fin 1) q)) (P2 (ix2 (0 : Fin 1) q)) (P4 (ix2 k₀ q)) (P5 (ix2 k₀ q)) q := by
  have i0 : ix6_0 (ix2 p q) = ix2 p q := funext fun a => by match a with | ⟨0, _⟩ => rfl | ⟨1, _⟩ => rfl
  have i1 : ix6_1 (ix2 p q) = ix1 p := funext fun a => by match a with | ⟨0, _⟩ => rfl
  have i2 : ix6_2 (ix2 p q) = ix1 p := funext fun a => by match a with | ⟨0, _⟩ => rfl
  have i3 : ix6_3 (ix2 p q) = ix2 (0 : Fin 1) q := funext fun a => by match a with | ⟨0, _⟩ => rfl | ⟨1, _⟩ => rfl
  have i4 : ix6_4 (ix2 p q) = ix2 (0 : Fin 1) q := funext fun a => by match a with | ⟨0, _⟩ => rfl | ⟨1, _⟩ => rfl
  have i5 : ix6_5 (ix2 p q) = ix2 p q := funext fun a => by match a with | ⟨0, _⟩ => rfl | ⟨1, _⟩ => rfl
  have i6 : ix6_6 (ix2 p q) = ix2 p q := funext fun a => by match a with | ⟨0, _⟩ => rfl | ⟨1, _⟩ => rfl
  have i7 : ix6_7 (ix2 p q) = ix2 p q := funext fun a => by match a with | ⟨0, _⟩ => rfl | ⟨1, _⟩ => rfl
  unfold E6
  dsimp only
  rw [i0, i1, i2, i3, i4, i5, i6, i7, sqsum, rowsum, scale_entry P3 P4 p q k₀ hw, shift_entry P3 P5 p q k₀ hw]
  rfl

end Cert.KernelIdeal.PointNorm

end
-- ==== Proof.KernelHost.lean ====
/-
  What the region finds in the arrays its windows stage, as functions of the arguments.

  Before the region @main computes, on the host: the two 8 × 64 tables (the slices `[:, 0:64]` — the shift — and
  `[:, 64:128]` — the scale — of `silu(token) · Wᵀ + b`), the id column (column 0 of `coors`, flattened and laid back as a
  column), and γ, β as 1 × 64 rows. Here the id column and the two rows are read at an entry; the tables are kept as the
  operations' term (the reference computes the same term, and neither side opens it).
-/
import proofs.«408608_j37606733644287_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.PointNorm

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- γ as the region finds it: the argument vector viewed as a 1 × 64 row. -/
theorem gamma_row (c : Dev nD) :
    (V m c main_v11 : S1x64.Idx → EReal) = shapeCast S1x64 (m ((c : Thread nD τ).loc main_arg2)) shapeCasts_S64_S1x64 := by
  dsimp only [Gen.V]
  simp only [Gen.hostOps0, Gen.hostOps0_1, List.flatten_cons, List.flatten_nil, List.append_nil, List.cons_append, List.nil_append]
  after_results
  rfl

/-- β likewise. -/
theorem beta_row (c : Dev nD) :
    (V m c main_v12 : S1x64.Idx → EReal) = shapeCast S1x64 (m ((c : Thread nD τ).loc main_arg3)) shapeCasts_S64_S1x64 := by
  dsimp only [Gen.V]
  simp only [Gen.hostOps0, Gen.hostOps0_1, List.flatten_cons, List.flatten_nil, List.append_nil, List.cons_append, List.nil_append]
  after_results
  rfl

/-- A 64-vector viewed as a 1 × 64 row reads, at `(0, q)`, the vector at `q`. -/
theorem row_of_vector {α : Type} (v : S64.Idx → α) (q : Fin 64) :
    shapeCast S1x64 v shapeCasts_S64_S1x64 (ix2 (0 : Fin 1) q) = v (ix1 q) :=
  shapeCast_apply _ _ (ix2 (0 : Fin 1) q) (ix1 q)
    (by rw [Shape.rowMajor_val_one, Shape.rowMajor_val_two]; show q.val = 0 * 64 + q.val; omega)

theorem gamma_entry (c : Dev nD) (q : Fin 64) :
    (V m c main_v11 : S1x64.Idx → EReal) (ix2 (0 : Fin 1) q) = m ((c : Thread nD τ).loc main_arg2) (ix1 q) := by
  rw [gamma_row, row_of_vector]

theorem beta_entry (c : Dev nD) (q : Fin 64) :
    (V m c main_v12 : S1x64.Idx → EReal) (ix2 (0 : Fin 1) q) = m ((c : Thread nD τ).loc main_arg3) (ix1 q) := by
  rw [beta_row, row_of_vector]

/-- The id column as the region finds it: column 0 of `coors`, flattened and laid back as a column. -/
theorem id_column (c : Dev nD) :
    (V m c main_v10 : S1000000x1.Idx → BitVec 32)
      = shapeCast S1000000x1 (shapeCast S1000000 (extractStridedSlice S1000000x1 ![0, 0] (m ((c : Thread nD τ).loc main_arg6)) slices_S1000000x4_S1000000x1_0_0)
          shapeCasts_S1000000x1_S1000000) shapeCasts_S1000000_S1000000x1 := by
  dsimp only [Gen.V]
  simp only [Gen.hostOps0, Gen.hostOps0_1, List.flatten_cons, List.flatten_nil, List.append_nil, List.cons_append, List.nil_append]
  after_results
  rfl

/-- Its entry `(r, 0)` is `coors (r, 0)`. -/
theorem id_entry (c : Dev nD) (r : Fin 1000000) :
    (V m c main_v10 : S1000000x1.Idx → BitVec 32) (ix2 r (0 : Fin 1)) = m ((c : Thread nD τ).loc main_arg6) (ix2 r (0 : Fin 4)) := by
  rw [id_column, shapeCast_shapeCast]
  exact extractStridedSlice_apply ![0, 0] _ slices_S1000000x4_S1000000x1_0_0 (ix2 r (0 : Fin 1)) (ix2 r (0 : Fin 4)) (fun a => match a with
    | ⟨0, _⟩ => by show r.val = 0 + r.val; omega
    | ⟨1, _⟩ => by show 0 = 0 + 0; omega)

end Cert.KernelIdeal.PointNorm

end
-- ==== Proof.KernelFinal.lean ====
/-
  The idealized kernel's result array, whole.

  The grid has 125 points; point `t` stages rows `8000 t … 8000 t + 7999` of `x` and of the id column, the two whole
  tables and the two whole rows, and writes back rows `8000 t … 8000 t + 7999` of the result. So entry `(p, q)` of what
  point `t` writes is entry `(8000 t + p, q)` of ONE whole-array function (`G`): the normalised row of `x`, modulated by
  the table row its batch id names. That needs every id to be the word of a row of the tables (`IdsInRange`): the
  one-hot row of an id outside `[0, 8)` is all zero and selects nothing. The 125 blocks of 8000 rows tile the 1 000 000
  rows, so the array after the run is `G`.
-/
import proofs.«408608_j37606733644287_2_alg».proof.Proof.Gen.KernelIdeal.Value
import proofs.«408608_j37606733644287_2_alg».proof.Proof.KernelBlock
import proofs.«408608_j37606733644287_2_alg».proof.Proof.KernelHost

noncomputable section

namespace Cert.KernelIdeal.PointNorm

open Cert.KernelIdeal Cert.KernelIdeal.Gen Cert.KernelIdeal.Value Idealize.ShloMosaic Idealize.ShloMosaic.TcCoe
open Idealize.ShloMosaic.ValueIdx Idealize.SL.Sem Cert.PointNorm
open Idealize.ShloMosaic.Pipeline (Dat)

variable (m : (ℓ : Loc nD τ sig) → Buf (Elt Ideal) ℓ) (ρ : Dev nD → PrngReg)

/-- Every point's batch id (column 0 of `coors`), read signed, is a row of the 8-row tables. -/
def IdsInRange (c : Dev nD) : Prop :=
  ∀ r : Fin 1000000, 0 ≤ (m ((c : Thread nD τ).loc main_arg6) (ix2 r (0 : Fin 4))).toInt
    ∧ (m ((c : Thread nD τ).loc main_arg6) (ix2 r (0 : Fin 4))).toInt < 8

/-- The table row point `r`'s id names. -/
def rowId (c : Dev nD) (r : Fin 1000000) : Fin 8 := rowOfWord (m ((c : Thread nD τ).loc main_arg6) (ix2 r (0 : Fin 4)))

/-- THE RESULT ARRAY as one function of what the region finds: the rows of `x` normalised under `(γ, β)` and modulated
    by the rows of the scale and shift tables (the arrays `main_v7`, `main_v6` the host prefix computed) the ids name. -/
def G (c : Dev nD) : S1000000x64.Idx → EReal :=
  out (V m c main_arg0 : S1000000x64.Idx → EReal) (m ((c : Thread nD τ).loc main_arg2)) (m ((c : Thread nD τ).loc main_arg3))
    (V m c main_v6 : S8x64.Idx → EReal) (V m c main_v7 : S8x64.Idx → EReal) (rowId m c)

/-! ## The windows' blocks at a point, entry by entry -/

/-- The printed index maps over the 125 points: the row-tiled windows are at block `t`, the resident ones at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 125 := lt_of_lt_of_eq t.isLt N_0

/-- Row `p` of point `t`'s block is row `8000 t + p` of the array. -/
def rowOf (t : Fin cfg0.N) (p : Fin 8000) : Fin 1000000 :=
  ⟨t.val * 8000 + p.val, by have := point_lt t; have := p.isLt; omega⟩

abbrev xblk (c : Dev nD) (t : Fin cfg0.N) : Vec Ideal S8000x64 .f32 := iblk m c 0 t
abbrev idblk (c : Dev nD) (t : Fin cfg0.N) : Vec Ideal S8000x1 .i32 := iblk m c 1 t
abbrev shblk (c : Dev nD) (t : Fin cfg0.N) : Vec Ideal S8x64 .f32 := iblk m c 2 t
abbrev scblk (c : Dev nD) (t : Fin cfg0.N) : Vec Ideal S8x64 .f32 := iblk m c 3 t
abbrev gablk (c : Dev nD) (t : Fin cfg0.N) : Vec Ideal S1x64 .f32 := iblk m c 4 t
abbrev beblk (c : Dev nD) (t : Fin cfg0.N) : Vec Ideal S1x64 .f32 := iblk m c 5 t

theorem xblk_entry (c : Dev nD) (t : Fin cfg0.N) (p : Fin 8000) (k : Fin 64) :
    xblk m c t (ix2 p k) = (V m c main_arg0 : S1000000x64.Idx → EReal) (ix2 (rowOf t p) k) := by
  obtain ⟨e0, e1, -⟩ := idx_facts t
  show (V m c main_arg0 : S1000000x64.Idx → EReal) (((cfg0.win 0).blk t).view.emb (ix2 p k)) = _
  have h : ((cfg0.win 0).blk t).view.emb (ix2 p k) = ix2 (rowOf t p) k := by
    funext a; apply Fin.ext
    match a with
    | ⟨0, _⟩ => show win0_0.index t (0 : Fin 2) * 8000 + 1 * p.val = t.val * 8000 + p.val; omega
    | ⟨1, _⟩ => show win0_0.index t (1 : Fin 2) * 64 + 1 * k.val = k.val; omega
  rw [h]

theorem idblk_entry (c : Dev nD) (t : Fin cfg0.N) (p : Fin 8000) :
    idblk m c t (ix2 p (0 : Fin 1)) = (V m c main_v10 : S1000000x1.Idx → BitVec 32) (ix2 (rowOf t p) (0 : Fin 1)) := by
  obtain ⟨-, -, e0, e1, -⟩ := idx_facts t
  show (V m c main_v10 : S1000000x1.Idx → BitVec 32) (((cfg0.win 1).blk t).view.emb (ix2 p (0 : Fin 1))) = _
  have h : ((cfg0.win 1).blk t).view.emb (ix2 p (0 : Fin 1)) = ix2 (rowOf t p) (0 : Fin 1) := by
    funext a; apply Fin.ext
    match a with
    | ⟨0, _⟩ => show win0_1.index t (0 : Fin 2) * 8000 + 1 * p.val = t.val * 8000 + p.val; omega
    | ⟨1, _⟩ => show win0_1.index t (1 : Fin 2) * 1 + 1 * 0 = 0; omega
  rw [h]

theorem shblk_entry (c : Dev nD) (t : Fin cfg0.N) (k : Fin 8) (q : Fin 64) :
    shblk m c t (ix2 k q) = (V m c main_v6 : S8x64.Idx → EReal) (ix2 k q) := by
  obtain ⟨-, -, -, -, e0, e1, -⟩ := idx_facts t
  show (V m c main_v6 : S8x64.Idx → EReal) (((cfg0.win 2).blk t).view.emb (ix2 k q)) = _
  have h : ((cfg0.win 2).blk t).view.emb (ix2 k q) = ix2 k q := by
    funext a; apply Fin.ext
    match a with
    | ⟨0, _⟩ => show win0_2.index t (0 : Fin 2) * 8 + 1 * k.val = k.val; omega
    | ⟨1, _⟩ => show win0_2.index t (1 : Fin 2) * 64 + 1 * q.val = q.val; omega
  rw [h]

theorem scblk_entry (c : Dev nD) (t : Fin cfg0.N) (k : Fin 8) (q : Fin 64) :
    scblk m c t (ix2 k q) = (V m c main_v7 : S8x64.Idx → EReal) (ix2 k q) := by
  obtain ⟨-, -, -, -, -, -, e0, e1, -⟩ := idx_facts t
  show (V m c main_v7 : S8x64.Idx → EReal) (((cfg0.win 3).blk t).view.emb (ix2 k q)) = _
  have h : ((cfg0.win 3).blk t).view.emb (ix2 k q) = ix2 k q := by
    funext a; apply Fin.ext
    match a with
    | ⟨0, _⟩ => show win0_3.index t (0 : Fin 2) * 8 + 1 * k.val = k.val; omega
    | ⟨1, _⟩ => show win0_3.index t (1 : Fin 2) * 64 + 1 * q.val = q.val; omega
  rw [h]

theorem gablk_entry (c : Dev nD) (t : Fin cfg0.N) (q : Fin 64) :
    gablk m c t (ix2 (0 : Fin 1) q) = (V m c main_v11 : S1x64.Idx → EReal) (ix2 (0 : Fin 1) q) := by
  obtain ⟨-, -, -, -, -, -, -, -, e0, e1, -⟩ := idx_facts t
  show (V m c main_v11 : S1x64.Idx → EReal) (((cfg0.win 4).blk t).view.emb (ix2 (0 : Fin 1) q)) = _
  have h : ((cfg0.win 4).blk t).view.emb (ix2 (0 : Fin 1) q) = ix2 (0 : Fin 1) q := by
    funext a; apply Fin.ext
    match a with
    | ⟨0, _⟩ => show win0_4.index t (0 : Fin 2) * 1 + 1 * 0 = 0; omega
    | ⟨1, _⟩ => show win0_4.index t (1 : Fin 2) * 64 + 1 * q.val = q.val; omega
  rw [h]

theorem beblk_entry (c : Dev nD) (t : Fin cfg0.N) (q : Fin 64) :
    beblk m c t (ix2 (0 : Fin 1) q) = (V m c main_v12 : S1x64.Idx → EReal) (ix2 (0 : Fin 1) q) := by
  obtain ⟨-, -, -, -, -, -, -, -, -, -, e0, e1, -⟩ := idx_facts t
  show (V m c main_v12 : S1x64.Idx → EReal) (((cfg0.win 5).blk t).view.emb (ix2 (0 : Fin 1) q)) = _
  have h : ((cfg0.win 5).blk t).view.emb (ix2 (0 : Fin 1) q) = ix2 (0 : Fin 1) q := by
    funext a; apply Fin.ext
    match a with
    | ⟨0, _⟩ => show win0_5.index t (0 : Fin 2) * 1 + 1 * 0 = 0; omega
    | ⟨1, _⟩ => show win0_5.index t (1 : Fin 2) * 64 + 1 * q.val = q.val; omega
  rw [h]

/-! ## What a point writes back -/

theorem hz : (![0, 0] : Fin 2 → Nat) = fun _ => 0 := funext fun a => by fin_cases a <;> rfl

/-- What the body leaves in the output block is the generated pointwise expression of the point's blocks. -/
theorem stored_eq (c : Dev nD) (t : Fin cfg0.N) (y : S8000x64.Idx) :
    out0_6 (xblk m c t) (idblk m c t) (shblk m c t) (scblk m c t) (gablk m c t) (beblk m c t) y
      = E6 (xblk m c t) (gablk m c t) (beblk m c t) (idblk m c t) (scblk m c t) (shblk m c t) y := by
  unfold out0_6
  simp only [View.ld_unit_zero (S := S8000x64) hz, View.ld_unit_zero (S := S1x64) hz,
    View.ld_unit_zero (S := S8000x1) hz, View.ld_unit_zero (S := S8x64) hz]
  exact canon6_eq _ _ _ _ _ _ y

/-- WHAT POINT `t` WRITES BACK is block `t` of `G`. -/
theorem flushed_eq (c : Dev nD) (H : IdsInRange m c) (t : Fin cfg0.N) :
    (dats m 0 c).flushed 6 t = ((cfg0.win 6).blk t).view.read (Elt Ideal) (G m c) := by
  rw [Value.flushed6]
  funext y
  obtain ⟨p, q, rfl⟩ : ∃ (p : Fin 8000) (q : Fin 64), y = ix2 p q := ⟨y 0, y 1, eq_ix2 y⟩
  show out0_6 (xblk m c t) (idblk m c t) (shblk m c t) (scblk m c t) (gablk m c t) (beblk m c t) (ix2 p q)
    = G m c (((cfg0.win 6).blk t).view.emb (ix2 p q))
  have hemb : ((cfg0.win 6).blk t).view.emb (ix2 p q) = ix2 (rowOf t p) q := by
    obtain ⟨-, -, -, -, -, -, -, -, -, -, -, -, e0, e1⟩ := idx_facts t
    funext a; apply Fin.ext
    match a with
    | ⟨0, _⟩ => show win0_6.index t (0 : Fin 2) * 8000 + 1 * p.val = t.val * 8000 + p.val; omega
    | ⟨1, _⟩ => show win0_6.index t (1 : Fin 2) * 64 + 1 * q.val = q.val; omega
  have hw : idblk m c t (ix2 p (0 : Fin 1)) = BitVec.ofNat 32 (rowId m c (rowOf t p)).val := by
    rw [idblk_entry, id_entry]
    exact word_eq_of_range _ (H (rowOf t p)).1 (H (rowOf t p)).2
  rw [stored_eq, hemb, block_entry _ _ _ _ _ _ p q (rowId m c (rowOf t p)) hw]
  unfold G
  rw [out_apply]
  have hx : (fun k => xblk m c t (ix2 p k)) = fun k => (V m c main_arg0 : S1000000x64.Idx → EReal) (ix2 (rowOf t p) k) :=
    funext fun k => xblk_entry m c t p k
  rw [hx, gablk_entry, gamma_entry, beblk_entry, beta_entry, scblk_entry, shblk_entry]

/-! ## The array after the run -/

/-- An index of the array is in point `t`'s block iff each coordinate is in the block's range on its axis. -/
theorem mem_blk (t : Fin cfg0.N) (i : S1000000x64.Idx) :
    i ∈ ((cfg0.win 6).blk t).view.set ↔ ∀ a : Fin 2, win0_6.index t a * S8000x64.size a ≤ (i a).val ∧ (i a).val < win0_6.index t a * S8000x64.size a + S8000x64.size a := by
  show i ∈ ((View.whole main_v13).slice (win0_6.rect t)).set ↔ _
  rw [View.set_slice_whole, Rect.mem_set_unit]
  exact Iff.rfl

/-- Every entry of the array is in some point's block: row `r` is in block `r / 8000`. -/
theorem cover (i : S1000000x64.Idx) : ∃ t : Fin cfg0.N, (cfg0.win 6).flush t = true ∧ i ∈ ((cfg0.win 6).blk t).view.set := by
  have hi0 : (i 0).val < 1000000 := (i 0).isLt
  have hi1 : (i 1).val < 64 := (i 1).isLt
  let t : Fin cfg0.N := ⟨(i 0).val / 8000, lt_of_lt_of_eq (by omega : (i 0).val / 8000 < 125) N_0.symm⟩
  obtain ⟨-, -, -, -, -, -, -, -, -, -, -, -, e0, e1⟩ := idx_facts t
  have e0' : win0_6.index t (0 : Fin 2) = (i 0).val / 8000 := e0
  refine ⟨t, flush0_6 t, ?_⟩
  rw [mem_blk]
  intro a
  match a with
  | ⟨0, _⟩ => show win0_6.index t (0 : Fin 2) * 8000 ≤ (i 0).val ∧ (i 0).val < win0_6.index t (0 : Fin 2) * 8000 + 8000; omega
  | ⟨1, _⟩ => show win0_6.index t (1 : Fin 2) * 64 ≤ (i 1).val ∧ (i 1).val < win0_6.index t (1 : Fin 2) * 64 + 64; omega

/-- THE ARRAY AFTER THE RUN is `G`. -/
theorem final (c : Dev nD) (H : IdsInRange m c) : (dats m 0 c).arrAt 6 cfg0.N = G m c :=
  (dats m 0 c).arrAt_eq_of_cover 6 (G m c) (fun t _ => flushed_eq m c H t) (cover)

/-- The kernel's run, its result array named: under ids in range, every weakly fair execution terminates with the result at
    `G` and the arguments unchanged. -/
theorem run (H : ∀ c, IdsInRange m c) :
    θ_run defs (onTc (τ := τ) (main (F := Ideal))) ⟨m, fun _ => 0, ρ⟩ fun r => ∀ c : Dev nD,
      r.2.mem ((c : Thread nD τ).loc main_v13) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c (H c)), (h c).2⟩) (Value.run_blocks m ρ)

end Cert.KernelIdeal.PointNorm

end
-- ==== Proof.RefValue.lean ====
/-
  The reference's result, read at an entry.

  The reference normalises every row of `x` on the host (two sums over the 64 columns, kept as columns and laid back over
  the rows), computes the two tables, takes for every point the table row its batch id names — jnp's `T[idx]`: a
  negative id has 8 added, then a row gather that clamps — and modulates. Read at `(r, c)` through the generated
  one-operation-at-a-time lemmas it is `Cert.PointNorm.film` of row `r`, with the tables' row `k₀` when the id of `r` is
  the word of `k₀ < 8`: such a word is not negative, so nothing is added, and it is in range, so nothing is clamped.
-/
import proofs.«408608_j37606733644287_2_alg».proof.Proof.Gen.ReferenceIdeal.Read
import proofs.«408608_j37606733644287_2_alg».proof.Proof.Spec
import proofs.«408608_j37606733644287_2_alg».proof.Proof.LibRowTake

noncomputable section

open scoped BigOperators

namespace Cert.ReferenceIdeal.PointNorm

open Cert.ReferenceIdeal Cert.ReferenceIdeal.Gen Cert.ReferenceIdeal.Read Idealize.ShloMosaic Idealize.ShloMosaic.ValueIdx
open Cert.PointNorm

variable (x0 : (⟨S1000000x64, .f32⟩ : BufTy).Contents (Elt Ideal))

/-! ## The normalised row -/

/-- The mean column at row `r`. -/
theorem ref_mean (r : Fin 1000000) : val_main_v3 (F := Ideal) x0 (ix2 r (0 : Fin 1)) = mean (fun k => x0 (ix2 r k)) := by
  have e : ∀ k : Fin 64, idx_main_v0 (idx_main_v1 (ix2 r (0 : Fin 1))) k = ix2 r k := fun k =>
    funext fun a => by match a with | ⟨0, _⟩ => rfl | ⟨1, _⟩ => rfl
  rw [val_main_v3_apply, val_main_v1_apply, val_main_v0_apply, val_main_v2_apply, val_main_cst_0_apply, val_main_cst_apply]
  simp only [e]
  show Ideal.div (Ideal.ofBits .f32 0x00000000#32 + _) c64 = _
  rw [Ideal.ofBits_zero_f32, zero_add]
  rfl

/-- The centred entry. -/
theorem ref_centred (r : Fin 1000000) (k : Fin 64) :
    val_main_v5 (F := Ideal) x0 (ix2 r k) = x0 (ix2 r k) - mean (fun k => x0 (ix2 r k)) := by
  have e : idx_main_v4 (ix2 r k) = ix2 r (0 : Fin 1) := funext fun a => by match a with | ⟨0, _⟩ => rfl | ⟨1, _⟩ => rfl
  rw [val_main_v5_apply, val_main_v4_apply, e, ref_mean]
  rfl

/-- The variance column at row `r`. -/
theorem ref_var (r : Fin 1000000) : val_main_v10 (F := Ideal) x0 (ix2 r (0 : Fin 1)) = var (fun k => x0 (ix2 r k)) := by
  have e : ∀ k : Fin 64, idx_main_v7 (idx_main_v8 (ix2 r (0 : Fin 1))) k = ix2 r k := fun k =>
    funext fun a => by match a with | ⟨0, _⟩ => rfl | ⟨1, _⟩ => rfl
  rw [val_main_v10_apply, val_main_v8_apply, val_main_v7_apply, val_main_v9_apply, val_main_cst_2_apply, val_main_cst_1_apply]
  simp only [e, val_main_v6_apply, ref_centred]
  show Ideal.div (Ideal.ofBits .f32 0x00000000#32 + _) c64 = _
  rw [Ideal.ofBits_zero_f32, zero_add]
  rfl

/-- The normalised entry under the affine pair of its column. -/
theorem ref_normed (x2 x3 : (⟨S64, .f32⟩ : BufTy).Contents (Elt Ideal)) (r : Fin 1000000) (c : Fin 64) :
    val_main_v23 (F := Ideal) x0 x2 x3 (ix2 r c) = lnorm (fun k => x0 (ix2 r k)) (x2 (ix1 c)) (x3 (ix1 c)) c := by
  have e11 : idx_main_v11 (ix2 r c) = ix2 r (0 : Fin 1) := funext fun a => by match a with | ⟨0, _⟩ => rfl | ⟨1, _⟩ => rfl
  have e16 : idx_main_v16 (ix2 r c) = ix2 r (0 : Fin 1) := funext fun a => by match a with | ⟨0, _⟩ => rfl | ⟨1, _⟩ => rfl
  have e13 : idx_main_v13 (ix2 r (0 : Fin 1)) = ix0 := funext fun a => a.elim0
  have e18 : idx_main_v18 (idx_main_v19 (ix2 r c)) = ix1 c := funext fun a => by match a with | ⟨0, _⟩ => rfl
  have e21 : idx_main_v21 (idx_main_v22 (ix2 r c)) = ix1 c := funext fun a => by match a with | ⟨0, _⟩ => rfl
  rw [val_main_v23_apply, val_main_v20_apply, val_main_v17_apply, val_main_v12_apply, val_main_v11_apply, e11, ref_mean,
    val_main_v16_apply, e16, val_main_v15_apply, val_main_v14_apply, ref_var, val_main_v13_apply, val_main_cst_3_apply,
    val_main_v19_apply, val_main_v18_apply, e18, val_main_v22_apply, val_main_v21_apply, e21]
  rfl

/-! ## The table rows the ids name -/

/-- The start index the reference hands the gather for point `r`: its id, 8 added if negative. An id that is the word of
    `k₀ < 8` is not negative and is handed on as it is. -/
theorem ref_start (x6 : (⟨S1000000x4, .i32⟩ : BufTy).Contents (Elt Ideal)) (r : Fin 1000000) (k₀ : Fin 8)
    (hw : x6 (ix2 r (0 : Fin 4)) = BitVec.ofNat 32 k₀.val) :
    val_main_v38 (F := Ideal) x6 (ix1 r) = BitVec.ofNat 32 k₀.val := by
  have e33 : val_main_v33 (F := Ideal) x6 (ix1 r) = BitVec.ofNat 32 k₀.val := by
    have e : idx_main_v32 (idx_main_v33 (ix1 r)) = ix2 r (0 : Fin 4) := funext fun a => by
      match a with
      | ⟨0, _⟩ => apply Fin.ext; show r.val / 1 = r.val; omega
      | ⟨1, _⟩ => rfl
    rw [val_main_v33_apply, val_main_v32_apply, e, hw]
  rw [val_main_v38_apply, val_main_v35_apply, val_main_v37_apply, e33, val_main_v34_apply, val_main_c_apply]
  have hk := k₀.isLt
  have hslt : IntOp.cmpi .slt (BitVec.ofNat 32 k₀.val) 0#32 = 0#1 := by
    match k₀ with
    | ⟨0, _⟩ => rfl | ⟨1, _⟩ => rfl | ⟨2, _⟩ => rfl | ⟨3, _⟩ => rfl
    | ⟨4, _⟩ => rfl | ⟨5, _⟩ => rfl | ⟨6, _⟩ => rfl | ⟨7, _⟩ => rfl
  rw [hslt]
  rfl

theorem ref_start' (x6 : (⟨S1000000x4, .i32⟩ : BufTy).Contents (Elt Ideal)) (r : Fin 1000000) (k₀ : Fin 8)
    (hw : x6 (ix2 r (0 : Fin 4)) = BitVec.ofNat 32 k₀.val) :
    val_main_v48 (F := Ideal) x6 (ix1 r) = BitVec.ofNat 32 k₀.val := ref_start x6 r k₀ hw

/-- The gathered scale entry. -/
theorem ref_scale (x1 : (⟨S8x256, .f32⟩ : BufTy).Contents (Elt Ideal)) (x4 : (⟨S128x256, .f32⟩ : BufTy).Contents (Elt Ideal))
    (x5 : (⟨S128, .f32⟩ : BufTy).Contents (Elt Ideal)) (x6 : (⟨S1000000x4, .i32⟩ : BufTy).Contents (Elt Ideal))
    (r : Fin 1000000) (c : Fin 64) (k₀ : Fin 8) (hw : x6 (ix2 r (0 : Fin 4)) = BitVec.ofNat 32 k₀.val) :
    val_main_v40 (F := Ideal) x1 x4 x5 x6 (ix2 r c) = val_main_v31 (F := Ideal) x1 x4 x5 (ix2 k₀ c) := by
  unfold val_main_v40
  refine RowTake.gather_rows_of_word (by decide) _ rfl rfl rfl rfl rfl _ _ r c k₀ ?_
  have e : idx_main_v39 (ix2 r (0 : Fin 1)) = ix1 r := funext fun a => by match a with | ⟨0, _⟩ => rfl
  rw [val_main_v39_apply, e, ref_start x6 r k₀ hw]

/-- The gathered shift entry. -/
theorem ref_shift (x1 : (⟨S8x256, .f32⟩ : BufTy).Contents (Elt Ideal)) (x4 : (⟨S128x256, .f32⟩ : BufTy).Contents (Elt Ideal))
    (x5 : (⟨S128, .f32⟩ : BufTy).Contents (Elt Ideal)) (x6 : (⟨S1000000x4, .i32⟩ : BufTy).Contents (Elt Ideal))
    (r : Fin 1000000) (c : Fin 64) (k₀ : Fin 8) (hw : x6 (ix2 r (0 : Fin 4)) = BitVec.ofNat 32 k₀.val) :
    val_main_v50 (F := Ideal) x1 x4 x5 x6 (ix2 r c) = val_main_v30 (F := Ideal) x1 x4 x5 (ix2 k₀ c) := by
  unfold val_main_v50
  refine RowTake.gather_rows_of_word (by decide) _ rfl rfl rfl rfl rfl _ _ r c k₀ ?_
  have e : idx_main_v49 (ix2 r (0 : Fin 1)) = ix1 r := funext fun a => by match a with | ⟨0, _⟩ => rfl
  rw [val_main_v49_apply, e, ref_start' x6 r k₀ hw]

/-! ## The result at an entry -/

/-- THE REFERENCE'S RESULT AT `(r, c)`, when the id of `r` is the word of `k₀ < 8`. -/
theorem ref_entry (x1 : (⟨S8x256, .f32⟩ : BufTy).Contents (Elt Ideal)) (x2 x3 : (⟨S64, .f32⟩ : BufTy).Contents (Elt Ideal))
    (x4 : (⟨S128x256, .f32⟩ : BufTy).Contents (Elt Ideal)) (x5 : (⟨S128, .f32⟩ : BufTy).Contents (Elt Ideal))
    (x6 : (⟨S1000000x4, .i32⟩ : BufTy).Contents (Elt Ideal)) (r : Fin 1000000) (c : Fin 64) (k₀ : Fin 8)
    (hw : x6 (ix2 r (0 : Fin 4)) = BitVec.ofNat 32 k₀.val) :
    val_main_v51 (F := Ideal) x0 x1 x2 x3 x4 x5 x6 (ix2 r c)
      = film (fun k => x0 (ix2 r k)) (x2 (ix1 c)) (x3 (ix1 c)) (val_main_v31 (F := Ideal) x1 x4 x5 (ix2 k₀ c))
          (val_main_v30 (F := Ideal) x1 x4 x5 (ix2 k₀ c)) c := by
  have e41 : idx_main_v41 (ix2 r c) = ix0 := funext fun a => a.elim0
  rw [val_main_v51_apply, val_main_v43_apply, val_main_v42_apply, ref_normed, ref_scale x1 x4 x5 x6 r c k₀ hw,
    ref_shift x1 x4 x5 x6 r c k₀ hw, val_main_v41_apply, val_main_cst_5_apply]
  rfl

end Cert.ReferenceIdeal.PointNorm

end
-- ==== Proof.PreRange.lean ====
/-
  What the precondition says of the batch ids.

  The precondition is one conjunction of `jnp.all`s: every float input finite, and of column 0 of `coors` — the batch
  ids — every entry `≥ 0` and every entry `< 8`, compared signed. A reduce by `and` into one bit that is 1 had a 1 at
  every index, so each id, read signed, lies in `[0, 8)`: it is a row of the 8-row tables.
-/
import proofs.«408608_j37606733644287_2_alg».proof.Pre_finite_inputs
import proofs.«408608_j37606733644287_2_alg».proof.Proof.Gen.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.Lib.StableHlo.Predicate

noncomputable section

namespace Cert.PointNorm.Pre

open Cert.Pre_finite_inputs Idealize.ShloMosaic Idealize.ShloMosaic.ValueIdx

variable [Cert.Pre_finite_inputs.Facts]
open Cert.Pre_finite_inputs.Facts

instance : Subsingleton S_.Idx := ⟨fun a b => funext fun d => d.elim0⟩

/-- A word that is signed-`≥` the zero word reads, signed, non-negative. -/
theorem nonneg_of_sge (w : BitVec 32) (h : IntOp.cmpi .sge w 0#32 = 1#1) : 0 ≤ w.toInt := by
  unfold IntOp.cmpi at h
  have h' := (StableHlo.Predicate.ofBool_eq_one_iff _).mp h
  simpa [BitVec.sle] using h'

/-- A word that is signed-`<` the word of 8 reads, signed, below 8. -/
theorem lt8_of_slt (w : BitVec 32) (h : IntOp.cmpi .slt w 8#32 = 1#1) : w.toInt < 8 := by
  unfold IntOp.cmpi at h
  have h' := (StableHlo.Predicate.ofBool_eq_one_iff _).mp h
  have h8 : (8#32 : BitVec 32).toInt = 8 := by decide
  simpa [BitVec.slt, h8] using h'

/-- Column 0 of `coors`, flattened, at `r`. -/
theorem flat_id (a6 : IVec S1000000x4 32) (r : Fin 1000000) :
    shapeCast S1000000 (extractStridedSlice S1000000x1 ![0, 0] a6 slices_S1000000x4_S1000000x1_0_0) shapeCasts_S1000000x1_S1000000 (ix1 r)
      = a6 (ix2 r (0 : Fin 4)) := by
  refine (shapeCast_apply _ _ (ix1 r) (ix2 r (0 : Fin 1))
    (by rw [Shape.rowMajor_val_two, Shape.rowMajor_val_one]; show r.val * 1 + 0 = r.val; omega)).trans ?_
  exact extractStridedSlice_apply ![0, 0] a6 slices_S1000000x4_S1000000x1_0_0 (ix2 r (0 : Fin 1)) (ix2 r (0 : Fin 4)) (fun a => match a with
    | ⟨0, _⟩ => by show r.val = 0 + r.val; omega
    | ⟨1, _⟩ => by show 0 = 0 + 0; omega)

/-- THE IDS ARE ROWS OF THE TABLES: under the precondition every batch id, read signed, lies in `[0, 8)`. -/
theorem ids_of_pre {F : FTy → Type} [FloatOps F] (a0 : FVec F S1000000x64 .f32) (a1 : FVec F S8x256 .f32) (a2 a3 : FVec F S64 .f32)
    (a4 : FVec F S128x256 .f32) (a5 : FVec F S128 .f32) (a6 : IVec S1000000x4 32)
    (h : fn (F := F) a0 a1 a2 a3 a4 a5 a6 = fun _ => 1#1) (r : Fin 1000000) :
    0 ≤ (a6 (ix2 r (0 : Fin 4))).toInt ∧ (a6 (ix2 r (0 : Fin 4))).toInt < 8 := by
  have h0 := congrFun h ix0
  unfold fn fn_part1 fn_part2 at h0
  dsimp only at h0
  obtain ⟨h1, h39⟩ := IntOp.andi_eq_one.mp h0
  obtain ⟨-, h33⟩ := IntOp.andi_eq_one.mp h1
  have ge := Host.reduce_andi_all _ _ _ _ _ h33 (ix1 r)
  have lt := Host.reduce_andi_all _ _ _ _ _ h39 (ix1 r)
  constructor
  · have := nonneg_of_sge _ ge
    rwa [flat_id] at this
  · have := lt8_of_slt _ lt
    rwa [flat_id] at this

end Cert.PointNorm.Pre

end
-- ==== Proof.Tables.lean ====
/-
  The two tables are one term on both sides.

  Both programs compute `silu(token) · Wᵀ + b` on the host by the same operations in the same order (negate, exponential,
  `1 + ·`, `1 / ·`, times the token; the transpose of `W`; one contraction over the 256 context entries; the bias laid
  over the 8 rows) and cut it into columns `0 … 63` (the shift table) and `64 … 127` (the scale table). So what the
  kernel's region finds in its two table arrays is, operation for operation, the reference's two table stages of the
  same arguments: nothing is computed to see it.
-/
import proofs.«408608_j37606733644287_2_alg».proof.Proof.Gen.KernelIdeal.Frame
import proofs.«408608_j37606733644287_2_alg».proof.Proof.Gen.ReferenceIdeal.Read
import Idealize.ShloMosaic.Lib.StableHlo.Run

noncomputable section

namespace Cert.KernelIdeal.PointNorm

open Cert.KernelIdeal Cert.KernelIdeal.Gen Idealize.ShloMosaic Idealize.ShloMosaic.TcCoe
open Idealize.SL.Sem Idealize.ShloMosaic.StableHlo

variable (m : (ℓ : Loc nD τ sig) → Buf (Elt Ideal) ℓ)

/-- The shift table the region finds is the reference's shift stage of the kernel's arguments. -/
theorem shift_table (c : Dev nD) :
    (V m c main_v6 : S8x64.Idx → EReal)
      = Cert.ReferenceIdeal.Read.val_main_v30 (F := Ideal) (m ((c : Thread nD τ).loc main_arg1))
          (m ((c : Thread nD τ).loc main_arg4)) (m ((c : Thread nD τ).loc main_arg5)) := by
  dsimp only [Gen.V]
  simp only [Gen.hostOps0, Gen.hostOps0_1, List.flatten_cons, List.flatten_nil, List.append_nil, List.cons_append, List.nil_append]
  after_results
  rfl

/-- The scale table likewise. -/
theorem scale_table (c : Dev nD) :
    (V m c main_v7 : S8x64.Idx → EReal)
      = Cert.ReferenceIdeal.Read.val_main_v31 (F := Ideal) (m ((c : Thread nD τ).loc main_arg1))
          (m ((c : Thread nD τ).loc main_arg4)) (m ((c : Thread nD τ).loc main_arg5)) := by
  dsimp only [Gen.V]
  simp only [Gen.hostOps0, Gen.hostOps0_1, List.flatten_cons, List.flatten_nil, List.append_nil, List.cons_append, List.nil_append]
  after_results
  rfl

end Cert.KernelIdeal.PointNorm

end
-- ==== Proof.lean ====
/-
  The certificate of the point-norm kernel: a layer norm over each point's 64 features followed by a per-point affine
  modulation `normed · (1 + scale[id]) + shift[id]`, where the point's batch id selects a row of two 8 × 64 tables
  computed on the host from a small dense layer.

  The kernel tiles the 1 000 000 points into 125 blocks of 8000 rows and selects the table rows by a product with a
  one-hot row built from the id (compare with 0 … 7, widen, convert); the reference normalises whole arrays on the host and
  selects the rows by jnp's `T[idx]` (8 added to a negative id, then a clamping row gather). Over the extended reals the
  two agree exactly where every id is a row of the tables, `0 ≤ id < 8`, which the precondition states: there the one-hot
  product is the table's row (`0 · a = 0`, `a + 0 = a` for every extended real, so the tables may hold anything), the
  gather neither adds nor clamps, and the rest is the same operations on the same literals in the same order — a lane
  sum against a host sum, a division by the same 64.0, `rsqrt` on both sides. Outside that range the two differ (an id
  of 8 selects nothing in the kernel and row 7 in the reference), which is why the range is part of the statement.

  The frames of the two kernel programs are the generated ones; the reference's frame is its generated run with the
  result dropped; the idealization changed no operation. Proved here, over the generated value leg of the kernel and the
  generated one-operation-at-a-time reading of the reference: that both result arrays are `Cert.PointNorm.out`.
-/
import proofs.«408608_j37606733644287_2_alg».proof.Defs
import proofs.«408608_j37606733644287_2_alg».proof.Proof.Gen.Kernel
import proofs.«408608_j37606733644287_2_alg».proof.Proof.Gen.Kernel.Skeleton
import proofs.«408608_j37606733644287_2_alg».proof.Proof.Gen.Kernel.Launch
import proofs.«408608_j37606733644287_2_alg».proof.Proof.Gen.Kernel.Points
import proofs.«408608_j37606733644287_2_alg».proof.Proof.Gen.Kernel.Frame
import proofs.«408608_j37606733644287_2_alg».proof.Proof.Gen.KernelIdeal
import proofs.«408608_j37606733644287_2_alg».proof.Proof.Gen.KernelIdeal.Skeleton
import proofs.«408608_j37606733644287_2_alg».proof.Proof.Gen.KernelIdeal.Launch
import proofs.«408608_j37606733644287_2_alg».proof.Proof.Gen.KernelIdeal.Points
import proofs.«408608_j37606733644287_2_alg».proof.Proof.Gen.KernelIdeal.Frame
import proofs.«408608_j37606733644287_2_alg».proof.Proof.Gen.KernelIdeal.Value
import proofs.«408608_j37606733644287_2_alg».proof.Proof.Gen.ReferenceIdeal
import proofs.«408608_j37606733644287_2_alg».proof.Proof.Gen.ReferenceIdeal.Run
import proofs.«408608_j37606733644287_2_alg».proof.Proof.Gen.ReferenceIdeal.Read
import proofs.«408608_j37606733644287_2_alg».proof.Proof.Gen.Pre_finite_inputs
import proofs.«408608_j37606733644287_2_alg».proof.Proof.KernelFinal
import proofs.«408608_j37606733644287_2_alg».proof.Proof.RefValue
import proofs.«408608_j37606733644287_2_alg».proof.Proof.PreRange
import proofs.«408608_j37606733644287_2_alg».proof.Proof.Tables
import Idealize.ShloMosaic.Adequacy
import Idealize.ShloMosaic.Init

noncomputable section

namespace Cert.Proof

open Idealize.ShloMosaic Idealize.ShloMosaic.TcCoe Idealize.SL.Sem Idealize.ShloMosaic.ValueIdx
open Cert.PointNorm

/-- The reference's result array, of the kernel's arguments, is the kernel's result array: entry by entry both are the
    normalised row modulated by the table row the id names, and the tables are one term on both sides. -/
theorem result_eq (m : (ℓ : Loc Cert.KernelIdeal.nD Cert.KernelIdeal.τ Cert.KernelIdeal.sig) → Buf (Elt Ideal) ℓ)
    (c : Dev Cert.KernelIdeal.nD) (H : Cert.KernelIdeal.PointNorm.IdsInRange m c) :
    Cert.ReferenceIdeal.Read.val_main_v51 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
      = Cert.KernelIdeal.PointNorm.G m c := by
  funext i
  obtain ⟨r, q, rfl⟩ : ∃ (r : Fin 1000000) (q : Fin 64), i = ix2 r q := ⟨i 0, i 1, eq_ix2 i⟩
  have hw := word_eq_of_range _ (H r).1 (H r).2
  rw [Cert.ReferenceIdeal.PointNorm.ref_entry _ _ _ _ _ _ _ r q (Cert.KernelIdeal.PointNorm.rowId m c r) hw]
  unfold Cert.KernelIdeal.PointNorm.G
  rw [out_apply, Cert.KernelIdeal.Gen.V_main_arg0, Cert.KernelIdeal.PointNorm.shift_table,
    Cert.KernelIdeal.PointNorm.scale_table]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Under the precondition the ids are rows of the tables, so the kernel's array ends at `G` of its arguments and the
    reference's at the same function of arguments that agree. -/
theorem algebraic : Cert.algebraic_KernelIdeal_ReferenceIdeal := by
  intro m ρ m' ρ' hpre hagree
  have H : ∀ c, Cert.KernelIdeal.PointNorm.IdsInRange m c := fun c r =>
    Cert.PointNorm.Pre.ids_of_pre _ _ _ _ _ _ _ (hpre c) r
  refine ⟨fun c => Cert.KernelIdeal.PointNorm.G m c, Cert.KernelIdeal.PointNorm.run m ρ H, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq]
  obtain ⟨a0, a1, a2, a3, a4, a5, a6⟩ := hagree c
  rw [a0, a1, a2, a3, a4, a5, a6]
  exact result_eq m c (H c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
